-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096x64 : Shape := ⟨4, ![1, 16, 4096, 64]⟩
abbrev S_ : Shape := ⟨0, ![]⟩

class Facts : Prop where
  bcast_S_S1x16x4096x64 : S_.BroadcastsInDim S1x16x4096x64 (![] : Fin 0 → Fin S1x16x4096x64.rank)
  reducesTo_S1x16x4096x64_S_d0_1_2_3 : S1x16x4096x64.ReducesTo [0, 1, 2, 3] S_
  h_S_ : 0 < S_.numel

variable [Facts]

def fn {F : FTy → Type} [FloatOps F] (main_arg0 : FVec F S1x16x4096x64 .f32) (main_arg1 : FVec F S1x16x4096x64 .f32) (main_arg2 : FVec F S1x16x4096x64 .f32) : IVec S_ 1 :=
  let main_v0 : FVec F S1x16x4096x64 .f32 := Host.absf main_arg0
  let main_cst : FVec F S_ .f32 := constant S_ .f32 0x7F800000#32
  let main_v1 : FVec F S1x16x4096x64 .f32 := broadcastInDim S1x16x4096x64 ![] bcast_S_S1x16x4096x64 main_cst
  let main_v2 : IVec S1x16x4096x64 1 := cmpf .olt main_v0 main_v1
  let main_c : IVec S_ 1 := constantI S_ 1 1#1
  let main_v3 : IVec S_ 1 := (fun x v => Host.reduce IntOp.andi x v reducesTo_S1x16x4096x64_S_d0_1_2_3 h_S_) main_v2 main_c
  let main_v4 : FVec F S1x16x4096x64 .f32 := Host.absf main_arg1
  let main_cst_0 : FVec F S_ .f32 := constant S_ .f32 0x7F800000#32
  let main_v5 : FVec F S1x16x4096x64 .f32 := broadcastInDim S1x16x4096x64 ![] bcast_S_S1x16x4096x64 main_cst_0
  let main_v6 : IVec S1x16x4096x64 1 := cmpf .olt main_v4 main_v5
  let main_c_1 : IVec S_ 1 := constantI S_ 1 1#1
  let main_v7 : IVec S_ 1 := (fun x v => Host.reduce IntOp.andi x v reducesTo_S1x16x4096x64_S_d0_1_2_3 h_S_) main_v6 main_c_1
  let main_v8 : IVec S_ 1 := andi main_v3 main_v7
  let main_v9 : FVec F S1x16x4096x64 .f32 := Host.absf main_arg2
  let main_cst_2 : FVec F S_ .f32 := constant S_ .f32 0x7F800000#32
  let main_v10 : FVec F S1x16x4096x64 .f32 := broadcastInDim S1x16x4096x64 ![] bcast_S_S1x16x4096x64 main_cst_2
  let main_v11 : IVec S1x16x4096x64 1 := cmpf .olt main_v9 main_v10
  let main_c_3 : IVec S_ 1 := constantI S_ 1 1#1
  let main_v12 : IVec S_ 1 := (fun x v => Host.reduce IntOp.andi x v reducesTo_S1x16x4096x64_S_d0_1_2_3 h_S_) main_v11 main_c_3
  let main_v13 : IVec S_ 1 := andi main_v8 main_v12
  main_v13
-- ==== Kernel.lean ====
abbrev S1x16x4096x64 : Shape := ⟨4, ![1, 16, 4096, 64]⟩
abbrev S1x1x4096x64 : Shape := ⟨4, ![1, 1, 4096, 64]⟩
abbrev S4096x64 : Shape := ⟨2, ![4096, 64]⟩
abbrev S64x64 : Shape := ⟨2, ![64, 64]⟩

abbrev nBuf : Space → Nat
  | .hbm => 4
  | .vmem => 8
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x4096x64, .f32⟩
  | .local _ .vmem, ⟨7, _⟩ => ⟨S1x1x4096x64, .f32⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  bitsLt_bf16_f32 : FTy.bits .bf16 < FTy.bits .f32
  shapeCasts_S4096x64_S1x1x4096x64 : S4096x64.ShapeCasts S1x1x4096x64
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S1x16x4096x64.size a
  hwx0_0 : ∀ i : grid0.Coords, EltTy.bits .f32 = 32 ∨ (Rect.block (s := S1x16x4096x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S1x16x4096x64.size a
  hwx0_1 : ∀ i : grid0.Coords, EltTy.bits .f32 = 32 ∨ (Rect.block (s := S1x16x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S1x16x4096x64.size a
  hwx0_2 : ∀ i : grid0.Coords, EltTy.bits .f32 = 32 ∨ (Rect.block (s := S1x16x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x64.size a ≤ S1x16x4096x64.size a
  hwx0_3 : ∀ i : grid0.Coords, EltTy.bits .f32 = 32 ∨ (Rect.block (s := S1x16x4096x64) S1x1x4096x64.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x4096x64 : Shape := ⟨4, ![1, 16, 4096, 64]⟩
abbrev S1x16x4096x4096 : Shape := ⟨4, ![1, 16, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x4096, .f32⟩
  | .hbm, ⟨4, _⟩ => ⟨S1x16x4096x64, .f32⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S1x16x4096x64_S1x16x4096x64_S1x16x4096x4096_3_3_2_2_01_01_wf : DotDims.WF S1x16x4096x64 S1x16x4096x64 S1x16x4096x4096 [3] [3] [2] [2] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]

variable [Facts₀]

def dot_S1x16x4096x64_S1x16x4096x64_S1x16x4096x4096_3_3_2_2_01_01 : DotDims S1x16x4096x64 S1x16x4096x64 S1x16x4096x4096 where
  lhsContracting := [3]
  rhsContracting := [3]
  lhsNonContracting := [2]
  rhsNonContracting := [2]
  lhsBatch := [0, 1]
  rhsBatch := [0, 1]
  wf := dot_S1x16x4096x64_S1x16x4096x64_S1x16x4096x4096_3_3_2_2_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf

class Facts : Prop extends Facts₀ where

variable [Facts]
-- ==== Proof.AttnSpec.lean ====
/-
  Attention with no softmax, one head at a time. For a head with q, k, v of shape [4096, 64] there are two
  arrangements of the same double contraction:

    K^T V first :  out[s, d] = Σ_e q[s, e] · (Σ_t k[t, e] · v[t, d])        (a 64 × 64 matrix in the middle)
    Q K^T first :  out[s, d] = Σ_t (Σ_e q[s, e] · k[t, e]) · v[t, d]        (a 4096 × 4096 matrix in the middle)

  Both are Σ_t Σ_e q[s, e] · k[t, e] · v[t, d]: distribute a factor over a finite sum on each side, then exchange the
  two sums. On the extended reals a product does not distribute over a sum in which +∞ meets −∞, so the law is proved
  for REAL entries and carried through the coercion ℝ → EReal; entries that are all finite are exactly such.
-/
import Idealize.ShloMosaic.PureOps.Ideal
import Idealize.ShloMosaic.Lib.ValueIdx
import Mathlib.Data.EReal.Basic
import Mathlib.Algebra.BigOperators.Ring.Finset
import Mathlib.Algebra.BigOperators.Group.Finset.Sigma

noncomputable section

namespace Cert.Attn

open Idealize.ShloMosaic Idealize.ShloMosaic.ValueIdx

/-! ## Real sums inside the extended reals -/

/-- The coercion ℝ → EReal goes through a finite sum (it goes through `+` and sends 0 to 0). -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The reassociation, for real entries: Σ_t (Σ_e a_e b_te) c_t = Σ_e a_e (Σ_t b_te c_t). Each side is the double sum
    of a_e · b_te · c_t; the left distributes c_t into the inner sum, the right distributes a_e, and the sums are
    exchanged. -/
theorem reassoc {T E : Type*} [Fintype T] [Fintype E] (a : E → ℝ) (b : T → E → ℝ) (c : T → ℝ) :
    (∑ t, (∑ e, (a e : EReal) * (b t e : EReal)) * (c t : EReal))
      = ∑ e, (a e : EReal) * ∑ t, (b t e : EReal) * (c t : EReal) := by
  simp only [← EReal.coe_mul, coe_sum]
  refine congrArg (fun r : ℝ => (r : EReal)) ?_
  simp only [Finset.sum_mul, Finset.mul_sum]
  rw [Finset.sum_comm]
  exact Finset.sum_congr rfl fun e _ => Finset.sum_congr rfl fun t _ => mul_assoc _ _ _

/-! ## The two arrangements over the arrays [1, 16, 4096, 64] -/

/-- The shape of q, k, v and of the output: batch 1, 16 heads, 4096 positions, 64 features. -/
abbrev QKV : Shape := ⟨4, ![1, 16, 4096, 64]⟩

/-- K^T V first, at batch `b`, head `h`, position `s`, feature `d`. -/
def kvFirstAt (q k v : QKV.Idx → EReal) (b : Fin 1) (h : Fin 16) (s : Fin 4096) (d : Fin 64) : EReal :=
  ∑ e : Fin 64, q (ix4 b h s e) * ∑ t : Fin 4096, k (ix4 b h t e) * v (ix4 b h t d)

/-- Q K^T first, at the same coordinates. -/
def qkFirstAt (q k v : QKV.Idx → EReal) (b : Fin 1) (h : Fin 16) (s : Fin 4096) (d : Fin 64) : EReal :=
  ∑ t : Fin 4096, (∑ e : Fin 64, q (ix4 b h s e) * k (ix4 b h t e)) * v (ix4 b h t d)

/-- The output array, as ONE function of the three argument arrays: K^T V first at the index's coordinates. -/
def attnOut (q k v : QKV.Idx → EReal) : QKV.Idx → EReal :=
  fun i => kvFirstAt q k v (i 0) (i 1) (i 2) (i 3)

/-- Every entry of the array is a real number. -/
def AllReal (x : QKV.Idx → EReal) : Prop := ∀ j, ∃ r : ℝ, x j = (r : EReal)

/-- On arrays of real entries the two arrangements agree, at every coordinate. -/
theorem qkFirstAt_eq_kvFirstAt (q k v : QKV.Idx → EReal) (hq : AllReal q) (hk : AllReal k) (hv : AllReal v)
    (b : Fin 1) (h : Fin 16) (s : Fin 4096) (d : Fin 64) :
    qkFirstAt q k v b h s d = kvFirstAt q k v b h s d := by
  choose qr hqr using hq
  choose kr hkr using hk
  choose vr hvr using hv
  unfold qkFirstAt kvFirstAt
  simp only [hqr, hkr, hvr]
  exact reassoc (fun e => qr (ix4 b h s e)) (fun t e => kr (ix4 b h t e)) (fun t => vr (ix4 b h t d))

end Cert.Attn

end
-- ==== Proof.AttnRef.lean ====
/-
  The reference computes attn = Q K^T (a [1, 16, 4096, 4096] array: attn[b, h, s, t] = Σ_e q[b, h, s, e] · k[b, h, t, e]) and
  then out = attn V (out[b, h, s, d] = Σ_t attn[b, h, s, t] · v[b, h, t, d]). Read at an index, its result is therefore the
  Q K^T-first arrangement of the specification: the outer sum runs over the 4096 key positions, the inner one over the 64
  features. Nothing here needs finiteness: it is only reading two contractions at an index.
-/
import proofs.«162669_j7954279432295_1_alg».proof.Proof.Gen.ReferenceIdeal.Read
import proofs.«162669_j7954279432295_1_alg».proof.Proof.AttnSpec

noncomputable section

namespace Cert.Attn.Ref

open Cert.ReferenceIdeal Cert.ReferenceIdeal.Gen Cert.ReferenceIdeal.Read
open Idealize.ShloMosaic Idealize.ShloMosaic.ValueIdx Cert.Attn

/-- The attention matrix's index (b, h, s, t), from the output index (b, h, s, d) and a key position t. -/
theorem attn_idx (b : Fin 1) (h : Fin 16) (s : Fin 4096) (d : Fin 64) (t : Fin 4096) :
    lidx_main_v1 (ix4 b h s d) t = ix4 b h s t :=
  funext fun a => by match a with | ⟨0, _⟩ => rfl | ⟨1, _⟩ => rfl | ⟨2, _⟩ => rfl | ⟨3, _⟩ => rfl

/-- The value's index (b, h, t, d) under the outer sum. -/
theorem v_idx (b : Fin 1) (h : Fin 16) (s : Fin 4096) (d : Fin 64) (t : Fin 4096) :
    ridx_main_v1 (ix4 b h s d) t = ix4 b h t d :=
  funext fun a => by match a with | ⟨0, _⟩ => rfl | ⟨1, _⟩ => rfl | ⟨2, _⟩ => rfl | ⟨3, _⟩ => rfl

/-- The query's index (b, h, s, e) under the inner sum. -/
theorem q_idx (b : Fin 1) (h : Fin 16) (s : Fin 4096) (t : Fin 4096) (e : Fin 64) :
    lidx_main_v0 (ix4 b h s t) e = ix4 b h s e :=
  funext fun a => by match a with | ⟨0, _⟩ => rfl | ⟨1, _⟩ => rfl | ⟨2, _⟩ => rfl | ⟨3, _⟩ => rfl

/-- The key's index (b, h, t, e) under the inner sum. -/
theorem k_idx (b : Fin 1) (h : Fin 16) (s : Fin 4096) (t : Fin 4096) (e : Fin 64) :
    ridx_main_v0 (ix4 b h s t) e = ix4 b h t e :=
  funext fun a => by match a with | ⟨0, _⟩ => rfl | ⟨1, _⟩ => rfl | ⟨2, _⟩ => rfl | ⟨3, _⟩ => rfl

/-- The reference's result at (b, h, s, d) is Σ_t (Σ_e q[b,h,s,e] · k[b,h,t,e]) · v[b,h,t,d]. -/
theorem result_at (q k v : QKV.Idx → EReal) (b : Fin 1) (h : Fin 16) (s : Fin 4096) (d : Fin 64) :
    val_main_v1 (F := Ideal) q k v (ix4 b h s d) = qkFirstAt q k v b h s d := by
  rw [val_main_v1_apply]
  unfold qkFirstAt
  refine Finset.sum_congr rfl fun t _ => ?_
  rw [attn_idx, v_idx, val_main_v0_apply]
  simp only [q_idx, k_idx]

end Cert.Attn.Ref

end
-- ==== Proof.LibShapeCast11.lean ====
/-
  Two leading unit axes dropped or added by a shape cast, read at an index. A `[1, 1, a, b]` array and an `[a, b]` array
  have the same row-major order: position (0, 0, i, j) of the first is position (i, j) of the second, both i · b + j. These
  are the rank-4 / rank-2 companions of the one-unit-axis forms (`shapeCast_1ab_ab_apply`, `shapeCast_ab_1ab_apply`), for
  any extents a and b, with both indices written by coordinates.
-/
import Idealize.ShloMosaic.Lib.Pipeline.Value
import Idealize.ShloMosaic.Lib.ValueIdx

namespace Cert.LibShapeCast11

open Idealize.ShloMosaic Idealize.ShloMosaic.ValueIdx Idealize.ShloMosaic.Pipeline

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Cert.LibShapeCast11
-- ==== Proof.AttnBody.lean ====
/-
  What the kernel body stores for one head, read at an index. The body loads the head's q, k, v blocks ([1, 1, 4096, 64]
  each), drops the two unit axes, and computes two matrix products into zero accumulators:

    kv[e, d]  = Σ_t k[t, e] · v[t, d]        (contracting the 4096 positions: K^T V, a 64 × 64 matrix)
    out[s, d] = Σ_e q[s, e] · kv[e, d]       (contracting the 64 features)

  and stores out with the two unit axes put back. The changes of float format in between (to bf16 and back) are the
  identity on the extended reals, so at (0, 0, s, d) the stored block holds Σ_e q[s, e] · (Σ_t k[t, e] · v[t, d]) of the
  loaded blocks: the K^T V-first arrangement. Each product is read at an index as a plain sum over its one contracted axis,
  re-indexed from the contraction's index type to Fin 4096 or Fin 64.
-/
import proofs.«162669_j7954279432295_1_alg».proof.Proof.Gen.KernelIdeal.Skeleton
import proofs.«162669_j7954279432295_1_alg».proof.Proof.LibShapeCast11
import Idealize.ShloMosaic.Lib.ValueIdx
import Idealize.ShloMosaic.PureOps.Ideal.Laws

noncomputable section

namespace Cert.Attn.Body

open Cert.KernelIdeal Cert.KernelIdeal.Gen
open Idealize.ShloMosaic Idealize.ShloMosaic.ValueIdx Cert.LibShapeCast11

/-! ## K^T V: operands [4096, 64] and [4096, 64], both contracted on axis 0, result [64, 64] -/

theorem kv_lhs_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
theorem kv_lhs_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem kv_rhs_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
theorem kv_rhs_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- K^T V into the zero accumulator, at (e, d): the sum over the 4096 positions of k[t, e] · v[t, d]. -/
theorem kv_at (kk vv : FVec Ideal S4096x64 .bf16) (e d : Fin 64) :
    matmul dot_S4096x64_S4096x64_S64x64_0_0_1_1_n_n none kk vv (constant (F := Ideal) S64x64 .f32 0x00000000#32) (ix2 e d)
      = ∑ t : Fin 4096, kk (ix2 t e) * vv (ix2 t d) := by
  simp only [matmul]
  rw [Ideal.matmul_constant_zero_apply, ← Equiv.sum_comp (contrEquiv1 dot_S4096x64_S4096x64_S64x64_0_0_1_1_n_n 4096 rfl rfl).symm]
  refine Finset.sum_congr rfl fun t _ => ?_
  have hk := contrEquiv1_symm_val dot_S4096x64_S4096x64_S64x64_0_0_1_1_n_n 4096 rfl rfl t
  have el : dot_S4096x64_S4096x64_S64x64_0_0_1_1_n_n.lhsIdx (ix2 e d) ((contrEquiv1 dot_S4096x64_S4096x64_S64x64_0_0_1_1_n_n 4096 rfl rfl).symm t) = ix2 t e := funext fun a => Fin.ext (by
    match a with
    | ⟨0, _⟩ => exact (kv_lhs_0 _ _).trans hk
    | ⟨1, _⟩ => exact kv_lhs_1 _ _)
  have er : dot_S4096x64_S4096x64_S64x64_0_0_1_1_n_n.rhsIdx (ix2 e d) ((contrEquiv1 dot_S4096x64_S4096x64_S64x64_0_0_1_1_n_n 4096 rfl rfl).symm t) = ix2 t d := funext fun a => Fin.ext (by
    match a with
    | ⟨0, _⟩ => exact (kv_rhs_0 _ _).trans hk
    | ⟨1, _⟩ => exact kv_rhs_1 _ _)
  rw [el, er]

/-! ## Q (K^T V): operands [4096, 64] contracted on axis 1 and [64, 64] contracted on axis 0, result [4096, 64] -/

theorem out_lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem out_lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem out_rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem out_rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Q times a 64 × 64 matrix into the zero accumulator, at (s, d): the sum over the 64 features of q[s, e] · m[e, d]. -/
theorem out_at (qq : FVec Ideal S4096x64 .bf16) (mm : FVec Ideal S64x64 .bf16) (s : Fin 4096) (d : Fin 64) :
    matmul dot_S4096x64_S64x64_S4096x64_1_0_0_1_n_n none qq mm (constant (F := Ideal) S4096x64 .f32 0x00000000#32) (ix2 s d)
      = ∑ e : Fin 64, qq (ix2 s e) * mm (ix2 e d) := by
  simp only [matmul]
  rw [Ideal.matmul_constant_zero_apply, ← Equiv.sum_comp (contrEquiv1 dot_S4096x64_S64x64_S4096x64_1_0_0_1_n_n 64 rfl rfl).symm]
  refine Finset.sum_congr rfl fun e _ => ?_
  have hk := contrEquiv1_symm_val dot_S4096x64_S64x64_S4096x64_1_0_0_1_n_n 64 rfl rfl e
  have el : dot_S4096x64_S64x64_S4096x64_1_0_0_1_n_n.lhsIdx (ix2 s d) ((contrEquiv1 dot_S4096x64_S64x64_S4096x64_1_0_0_1_n_n 64 rfl rfl).symm e) = ix2 s e := funext fun a => Fin.ext (by
    match a with
    | ⟨0, _⟩ => exact out_lhs_0 _ _
    | ⟨1, _⟩ => exact (out_lhs_1 _ _).trans hk)
  have er : dot_S4096x64_S64x64_S4096x64_1_0_0_1_n_n.rhsIdx (ix2 s d) ((contrEquiv1 dot_S4096x64_S64x64_S4096x64_1_0_0_1_n_n 64 rfl rfl).symm e) = ix2 e d := funext fun a => Fin.ext (by
    match a with
    | ⟨0, _⟩ => exact (out_rhs_0 _ _).trans hk
    | ⟨1, _⟩ => exact out_rhs_1 _ _)
  rw [el, er]

/-! ## The stored block at an index -/

/-- The body's one store, at (0, 0, s, d), from the three loaded blocks: Σ_e q[s, e] · (Σ_t k[t, e] · v[t, d]). -/
theorem pay_at (x0 x1 x2 : Vec Ideal S1x1x4096x64 .f32) (s : Fin 4096) (d : Fin 64) :
    k0_pay1 (F := Ideal) x0 x1 x2 (ix4 (0 : Fin 1) (0 : Fin 1) s d)
      = ∑ e : Fin 64, x0 (ix4 (0 : Fin 1) (0 : Fin 1) s e)
          * ∑ t : Fin 4096, x1 (ix4 (0 : Fin 1) (0 : Fin 1) t e) * x2 (ix4 (0 : Fin 1) (0 : Fin 1) t d) := by
  unfold k0_pay1
  refine (shapeCast_ab_11ab_apply _ _ (0 : Fin 1) (0 : Fin 1) s d).trans ?_
  refine (out_at _ _ s d).trans ?_
  refine Finset.sum_congr rfl fun e _ => ?_
  refine congrArg₂ (· * ·) ?_ ?_
  · exact (truncf_apply (ψ := .bf16) _ Facts₀.bitsLt_bf16_f32 _).trans (shapeCast_11ab_ab_apply x0 _ s e)
  · refine (truncf_apply (ψ := .bf16) _ Facts₀.bitsLt_bf16_f32 _).trans ?_
    refine (kv_at _ _ e d).trans ?_
    refine Finset.sum_congr rfl fun t _ => ?_
    exact congrArg₂ (· * ·) ((truncf_apply (ψ := .bf16) _ Facts₀.bitsLt_bf16_f32 _).trans (shapeCast_11ab_ab_apply x1 _ t e))
      ((truncf_apply (ψ := .bf16) _ Facts₀.bitsLt_bf16_f32 _).trans (shapeCast_11ab_ab_apply x2 _ t d))

end Cert.Attn.Body

end
-- ==== Proof.AttnBlocks.lean ====
/-
  From blocks to the array. The grid has one point per head: point t stages head t's slab — block (0, t, 0, 0) of extents
  [1, 1, 4096, 64] — of q, k and v, and writes the same block of the output back. So the input block of point t, read at
  (0, 0, s, e), is its array at (0, t, s, e), and what the point writes back is the body's stored block (the K^T V-first
  arrangement of the three loaded blocks) — which is block t of ONE whole-array function, the K^T V-first arrangement of the
  three argument arrays. The sixteen blocks tile the output array: index (b, h, s, d) lies in point h's block. Hence after
  the run the output array IS that function of the arguments, index by index.
-/
import proofs.«162669_j7954279432295_1_alg».proof.Proof.Gen.KernelIdeal.Value
import proofs.«162669_j7954279432295_1_alg».proof.Proof.AttnSpec
import proofs.«162669_j7954279432295_1_alg».proof.Proof.AttnBody
import Idealize.ShloMosaic.Lib.Pipeline.Value
import Idealize.ShloMosaic.Lib.ValueIdx

noncomputable section

namespace Cert.Attn.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Attn

/-! ## One point, over plain blocks -/

/-- If three blocks are head h's slabs of q, k, v, then the body's stored block at y is the output function at any array
    index i whose head is h and whose last two coordinates are y's. -/
theorem block_eq (q k v : QKV.Idx → EReal) (x0 x1 x2 : Vec Ideal S1x1x4096x64 .f32) (h : Fin 16)
    (h0 : ∀ (s : Fin 4096) (e : Fin 64), x0 (ix4 (0 : Fin 1) (0 : Fin 1) s e) = q (ix4 (0 : Fin 1) h s e))
    (h1 : ∀ (s : Fin 4096) (e : Fin 64), x1 (ix4 (0 : Fin 1) (0 : Fin 1) s e) = k (ix4 (0 : Fin 1) h s e))
    (h2 : ∀ (s : Fin 4096) (e : Fin 64), x2 (ix4 (0 : Fin 1) (0 : Fin 1) s e) = v (ix4 (0 : Fin 1) h s e))
    (y : S1x1x4096x64.Idx) (i : QKV.Idx)
    (hi1 : (i 1).val = h.val) (hi2 : (i 2).val = (y 2).val) (hi3 : (i 3).val = (y 3).val) :
    k0_pay1 (F := Ideal) x0 x1 x2 y = attnOut q k v i := by
  obtain ⟨u, u', s, d, rfl⟩ : ∃ (u u' : Fin 1) (s : Fin 4096) (d : Fin 64), y = ix4 u u' s d :=
    ⟨y 0, y 1, y 2, y 3, eq_ix4 y⟩
  obtain ⟨b, hh, s', d', rfl⟩ : ∃ (b : Fin 1) (hh : Fin 16) (s' : Fin 4096) (d' : Fin 64), i = ix4 b hh s' d' :=
    ⟨i 0, i 1, i 2, i 3, eq_ix4 i⟩
  have e1 : h = hh := Fin.ext hi1.symm
  have e2 : s = s' := Fin.ext hi2.symm
  have e3 : d = d' := Fin.ext hi3.symm
  have eu : (0 : Fin 1) = u := Subsingleton.elim _ _
  have eu' : (0 : Fin 1) = u' := Subsingleton.elim _ _
  have eb : (0 : Fin 1) = b := Subsingleton.elim _ _
  subst e1 e2 e3 eu eu' eb
  refine (Body.pay_at x0 x1 x2 s d).trans ?_
  show _ = kvFirstAt q k v (0 : Fin 1) h s d
  unfold kvFirstAt
  simp only [h0, h1, h2]

/-! ## The windows -/

variable (m : (ℓ : Loc nD τ sig) → Buf (Elt Ideal) ℓ) (ρ : Dev nD → PrngReg)

theorem hz : (![0, 0, 0, 0] : Fin 4 → Nat) = fun _ => 0 := funext fun a => by fin_cases a <;> rfl

/-- The four index maps, decided over the sixteen points: every window's block at point t is block (0, t, 0, 0). -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = t.val ∧ win0_2.index t (2 : Fin 4) = 0 ∧ win0_2.index t (3 : Fin 4) = 0)
    ∧ (win0_3.index t (0 : Fin 4) = 0 ∧ win0_3.index t (1 : Fin 4) = t.val ∧ win0_3.index t (2 : Fin 4) = 0 ∧ win0_3.index t (3 : Fin 4) = 0) :=
  (by decide +kernel : ∀ t : Fin grid0.N, _)

/-- The q block of point t at (0, 0, s, e) is q at (0, t, s, e). -/
theorem qblk_at (c : Dev nD) (t : Fin cfg0.N) (s : Fin 4096) (e : Fin 64) :
    iblk m c 0 t (ix4 (0 : Fin 1) (0 : Fin 1) s e)
      = V m c main_arg0 (ix4 (0 : Fin 1) (⟨t.val, t.isLt⟩ : Fin 16) s e) := by
  obtain ⟨⟨e0, e1, e2, e3⟩, -⟩ := idx_facts t
  have hemb : ((cfg0.win 0).blk t).view.emb (ix4 (0 : Fin 1) (0 : Fin 1) s e)
      = ix4 (0 : Fin 1) (⟨t.val, t.isLt⟩ : Fin 16) s e := by
    funext a; apply Fin.ext
    match a with
    | ⟨0, _⟩ => show win0_0.index t (0 : Fin 4) * 1 + 1 * 0 = 0; omega
    | ⟨1, _⟩ => show win0_0.index t (1 : Fin 4) * 1 + 1 * 0 = t.val; omega
    | ⟨2, _⟩ => show win0_0.index t (2 : Fin 4) * 4096 + 1 * s.val = s.val; omega
    | ⟨3, _⟩ => show win0_0.index t (3 : Fin 4) * 64 + 1 * e.val = e.val; omega
  show V m c main_arg0 (((cfg0.win 0).blk t).view.emb (ix4 (0 : Fin 1) (0 : Fin 1) s e)) = _
  rw [hemb]

/-- The k block of point t at (0, 0, s, e) is k at (0, t, s, e). -/
theorem kblk_at (c : Dev nD) (t : Fin cfg0.N) (s : Fin 4096) (e : Fin 64) :
    iblk m c 1 t (ix4 (0 : Fin 1) (0 : Fin 1) s e)
      = V m c main_arg1 (ix4 (0 : Fin 1) (⟨t.val, t.isLt⟩ : Fin 16) s e) := by
  obtain ⟨-, ⟨e0, e1, e2, e3⟩, -⟩ := idx_facts t
  have hemb : ((cfg0.win 1).blk t).view.emb (ix4 (0 : Fin 1) (0 : Fin 1) s e)
      = ix4 (0 : Fin 1) (⟨t.val, t.isLt⟩ : Fin 16) s e := by
    funext a; apply Fin.ext
    match a with
    | ⟨0, _⟩ => show win0_1.index t (0 : Fin 4) * 1 + 1 * 0 = 0; omega
    | ⟨1, _⟩ => show win0_1.index t (1 : Fin 4) * 1 + 1 * 0 = t.val; omega
    | ⟨2, _⟩ => show win0_1.index t (2 : Fin 4) * 4096 + 1 * s.val = s.val; omega
    | ⟨3, _⟩ => show win0_1.index t (3 : Fin 4) * 64 + 1 * e.val = e.val; omega
  show V m c main_arg1 (((cfg0.win 1).blk t).view.emb (ix4 (0 : Fin 1) (0 : Fin 1) s e)) = _
  rw [hemb]

/-- The v block of point t at (0, 0, s, e) is v at (0, t, s, e). -/
theorem vblk_at (c : Dev nD) (t : Fin cfg0.N) (s : Fin 4096) (e : Fin 64) :
    iblk m c 2 t (ix4 (0 : Fin 1) (0 : Fin 1) s e)
      = V m c main_arg2 (ix4 (0 : Fin 1) (⟨t.val, t.isLt⟩ : Fin 16) s e) := by
  obtain ⟨-, -, ⟨e0, e1, e2, e3⟩, -⟩ := idx_facts t
  have hemb : ((cfg0.win 2).blk t).view.emb (ix4 (0 : Fin 1) (0 : Fin 1) s e)
      = ix4 (0 : Fin 1) (⟨t.val, t.isLt⟩ : Fin 16) s e := by
    funext a; apply Fin.ext
    match a with
    | ⟨0, _⟩ => show win0_2.index t (0 : Fin 4) * 1 + 1 * 0 = 0; omega
    | ⟨1, _⟩ => show win0_2.index t (1 : Fin 4) * 1 + 1 * 0 = t.val; omega
    | ⟨2, _⟩ => show win0_2.index t (2 : Fin 4) * 4096 + 1 * s.val = s.val; omega
    | ⟨3, _⟩ => show win0_2.index t (3 : Fin 4) * 64 + 1 * e.val = e.val; omega
  show V m c main_arg2 (((cfg0.win 2).blk t).view.emb (ix4 (0 : Fin 1) (0 : Fin 1) s e)) = _
  rw [hemb]

/-- WHAT POINT t WRITES BACK is block t of the output function of the argument arrays as the region finds them. -/
theorem flushed_eq (c : Dev nD) (t : Fin cfg0.N) :
    (dats m 0 c).flushed 3 t
      = ((cfg0.win 3).blk t).view.read (Elt Ideal) (attnOut (V m c main_arg0) (V m c main_arg1) (V m c main_arg2)) := by
  rw [flushed3]
  unfold out0_3
  rw [View.canon_unit_zero hz]
  simp only [View.ld_unit_zero (S := S1x1x4096x64) hz]
  obtain ⟨-, -, -, ⟨o0, o1, o2, o3⟩⟩ := idx_facts t
  funext y
  show k0_pay1 (F := Ideal) (iblk m c 0 t) (iblk m c 1 t) (iblk m c 2 t) y
      = attnOut (V m c main_arg0) (V m c main_arg1) (V m c main_arg2) (((cfg0.win 3).blk t).view.emb y)
  refine block_eq (V m c main_arg0) (V m c main_arg1) (V m c main_arg2) (iblk m c 0 t) (iblk m c 1 t) (iblk m c 2 t)
    (⟨t.val, t.isLt⟩ : Fin 16) (qblk_at m c t) (kblk_at m c t) (vblk_at m c t) y (((cfg0.win 3).blk t).view.emb y) ?_ ?_ ?_
  · show win0_3.index t (1 : Fin 4) * 1 + 1 * (y 1).val = t.val
    have hy : (y 1).val < 1 := (y 1).isLt
    omega
  · show win0_3.index t (2 : Fin 4) * 4096 + 1 * (y 2).val = (y 2).val
    omega
  · show win0_3.index t (3 : Fin 4) * 64 + 1 * (y 3).val = (y 3).val
    omega

/-- An index of the array is in point t's block iff each coordinate is in the block's range on its axis. -/
theorem mem_blk (t : Fin cfg0.N) (i : S1x16x4096x64.Idx) :
    i ∈ ((cfg0.win 3).blk t).view.set ↔ ∀ a : Fin 4, win0_3.index t a * S1x1x4096x64.size a ≤ (i a).val
      ∧ (i a).val < win0_3.index t a * S1x1x4096x64.size a + S1x1x4096x64.size a := by
  show i ∈ ((View.whole main_v0).slice (win0_3.rect t)).set ↔ _
  rw [View.set_slice_whole, Rect.mem_set_unit]
  exact Iff.rfl

/-- The sixteen blocks tile the output array: index (b, h, s, d) is in point h's block. -/
theorem cover (i : S1x16x4096x64.Idx) :
    ∃ t : Fin cfg0.N, (cfg0.win 3).flush t = true ∧ i ∈ ((cfg0.win 3).blk t).view.set := by
  have hi0 : (i 0).val < 1 := (i 0).isLt
  have hi1 : (i 1).val < 16 := (i 1).isLt
  have hi2 : (i 2).val < 4096 := (i 2).isLt
  have hi3 : (i 3).val < 64 := (i 3).isLt
  obtain ⟨-, -, -, ⟨o0, o1, o2, o3⟩⟩ := idx_facts (⟨(i 1).val, hi1⟩ : Fin cfg0.N)
  have o1' : win0_3.index (⟨(i 1).val, hi1⟩ : Fin cfg0.N) (1 : Fin 4) = (i 1).val := o1
  refine ⟨⟨(i 1).val, hi1⟩, flush0_3 _, ?_⟩
  rw [mem_blk]
  intro a
  match a with
  | ⟨0, _⟩ =>
    show win0_3.index ⟨(i 1).val, hi1⟩ (0 : Fin 4) * 1 ≤ (i 0).val ∧ (i 0).val < win0_3.index ⟨(i 1).val, hi1⟩ (0 : Fin 4) * 1 + 1
    omega
  | ⟨1, _⟩ =>
    show win0_3.index ⟨(i 1).val, hi1⟩ (1 : Fin 4) * 1 ≤ (i 1).val ∧ (i 1).val < win0_3.index ⟨(i 1).val, hi1⟩ (1 : Fin 4) * 1 + 1
    omega
  | ⟨2, _⟩ =>
    show win0_3.index ⟨(i 1).val, hi1⟩ (2 : Fin 4) * 4096 ≤ (i 2).val ∧ (i 2).val < win0_3.index ⟨(i 1).val, hi1⟩ (2 : Fin 4) * 4096 + 4096
    omega
  | ⟨3, _⟩ =>
    show win0_3.index ⟨(i 1).val, hi1⟩ (3 : Fin 4) * 64 ≤ (i 3).val ∧ (i 3).val < win0_3.index ⟨(i 1).val, hi1⟩ (3 : Fin 4) * 64 + 64
    omega

/-- THE ARRAY after the run: the output function of the argument arrays. -/
theorem final (c : Dev nD) :
    (dats m 0 c).arrAt 3 cfg0.N = attnOut (V m c main_arg0) (V m c main_arg1) (V m c main_arg2) :=
  (dats m 0 c).arrAt_eq_of_cover 3 _ (fun t _ => flushed_eq m c t) cover

/-! ## The run, read -/

/-- The idealized kernel's run re-posted: the result array at the output function of the arguments as launched, the
    arguments unchanged. -/
theorem run : θ_run defs (onTc (τ := τ) (main (F := Ideal))) ⟨m, fun _ => 0, ρ⟩ fun r => ∀ c : Dev nD,
      r.2.mem ((c : Thread nD τ).loc main_v0)
        = attnOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Attn.Blocks

end
-- ==== Proof.AttnFinite.lean ====
/-
  What the precondition gives. It says, of each of q, k, v, that every entry's absolute value is strictly below the word
  0x7F800000 — +∞ — and conjoins the three. On the extended reals |x| is max x (−x), which is +∞ exactly at the two
  infinities; so an entry passing the test is a real number. "Every entry" is a reduction by `and` into one result, which
  is 1 only if every compared entry gave 1. This is the finiteness the reassociation law needs.
-/
import proofs.«162669_j7954279432295_1_alg».proof.Proof.Gen.Pre_finite_inputs
import proofs.«162669_j7954279432295_1_alg».proof.Proof.AttnSpec
import Idealize.ShloMosaic.Lib.ReduceAll
import Idealize.ShloMosaic.Lib.ValueIdx
import Idealize.ShloMosaic.PureOps.Ideal.Laws

noncomputable section

namespace Cert.Attn.Finite

open Cert.Pre_finite_inputs Cert.Pre_finite_inputs.Facts
open Idealize.ShloMosaic Idealize.ShloMosaic.ValueIdx Cert.Attn

/-- The result of a reduction over every axis has one index. -/
instance : Subsingleton S_.Idx := ⟨fun a b => funext fun d => d.elim0⟩

/-- The word the entries are compared with is +∞. -/
theorem inf_word : Ideal.ofBits .f32 0x7F800000#32 = (⊤ : EReal) := by simp [Ideal.ofBits, Ideal.ieee]

/-- An extended real whose absolute value max x (−x) is strictly below +∞ is a real number: at −∞ and at +∞ the
    maximum is +∞. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

/-- One `jnp.all(|x| < inf)` that came out 1: every entry of x is real. -/
theorem allReal_of_all (x : FVec Ideal S1x16x4096x64 .f32)
    (h : Host.reduce IntOp.andi
          (cmpf .olt (Host.absf x)
            (broadcastInDim S1x16x4096x64 ![] bcast_S_S1x16x4096x64 (constant (F := Ideal) S_ .f32 0x7F800000#32)))
          (constantI S_ 1 1#1) reducesTo_S1x16x4096x64_S_d0_1_2_3 h_S_ ix0 = 1#1) :
    AllReal x := fun j =>
  real_of_abs_lt_inf (x j) (Host.reduce_andi_all _ _ _ _ ix0 h j)

/-- The precondition, all ones: q, k and v have real entries. -/
theorem allReal_of_pre (q k v : FVec Ideal S1x16x4096x64 .f32) (h : fn (F := Ideal) q k v = fun _ => 1#1) :
    AllReal q ∧ AllReal k ∧ AllReal v := by
  have h0 := congrFun h ix0
  dsimp only [fn, andi] at h0
  obtain ⟨hqk, hv⟩ := IntOp.andi_eq_one.1 h0
  obtain ⟨hq, hk⟩ := IntOp.andi_eq_one.1 hqk
  exact ⟨allReal_of_all q hq, allReal_of_all k hk, allReal_of_all v hv⟩

end Cert.Attn.Finite

end
-- ==== Proof.lean ====
/-
  Attention with no softmax: the kernel computes Q (K^T V) head by head, the reference (Q K^T) V.

  For each of the 16 heads the kernel's one grid point loads the head's q, k, v slabs ([4096, 64] each), forms the 64 × 64
  matrix K^T V = Σ_t k[t, ·] ⊗ v[t, ·] and multiplies q by it; the changes of float format around the two products are the
  identity on the extended reals. The reference forms the 4096 × 4096 matrix Q K^T first and multiplies it by v. Entry
  (b, h, s, d) of the two results is

      kernel     Σ_e q[b,h,s,e] · (Σ_t k[b,h,t,e] · v[b,h,t,d])
      reference  Σ_t (Σ_e q[b,h,s,e] · k[b,h,t,e]) · v[b,h,t,d]

  and both are the double sum Σ_t Σ_e q[b,h,s,e] · k[b,h,t,e] · v[b,h,t,d]: a factor is distributed over a finite sum on
  each side and the two sums are exchanged. Distributing over a sum is not valid on the extended reals when +∞ meets −∞,
  so this is where the precondition is used: every entry of q, k, v has absolute value below +∞, hence is a real number,
  and on real entries the law is the one of ℝ carried through the coercion.

  The pieces: the two arrangements and the law between them (AttnSpec); the reference's two contractions read at an
  index (AttnRef); the kernel body's stored block read at an index (AttnBody, over two casts that drop or add the unit
  axes, LibShapeCast11); the sixteen blocks tiling the output array, so that the array after the run is one function of the
  arguments (AttnBlocks); real entries from the precondition (AttnFinite). The kernel and its idealization run and keep
  their arguments by their frames; the reference's frame is its run with the result dropped. The idealization rewrote no
  operation, so there is nothing to preserve beyond the program's own text read on the extended reals.
-/
import proofs.«162669_j7954279432295_1_alg».proof.Defs
import proofs.«162669_j7954279432295_1_alg».proof.Proof.Gen.Kernel
import proofs.«162669_j7954279432295_1_alg».proof.Proof.Gen.Kernel.Skeleton
import proofs.«162669_j7954279432295_1_alg».proof.Proof.Gen.Kernel.Launch
import proofs.«162669_j7954279432295_1_alg».proof.Proof.Gen.Kernel.Points
import proofs.«162669_j7954279432295_1_alg».proof.Proof.Gen.Kernel.Frame
import proofs.«162669_j7954279432295_1_alg».proof.Proof.Gen.KernelIdeal
import proofs.«162669_j7954279432295_1_alg».proof.Proof.Gen.KernelIdeal.Skeleton
import proofs.«162669_j7954279432295_1_alg».proof.Proof.Gen.KernelIdeal.Launch
import proofs.«162669_j7954279432295_1_alg».proof.Proof.Gen.KernelIdeal.Points
import proofs.«162669_j7954279432295_1_alg».proof.Proof.Gen.KernelIdeal.Frame
import proofs.«162669_j7954279432295_1_alg».proof.Proof.Gen.ReferenceIdeal
import proofs.«162669_j7954279432295_1_alg».proof.Proof.Gen.Pre_finite_inputs
import proofs.«162669_j7954279432295_1_alg».proof.Proof.Gen.KernelIdeal.Value
import proofs.«162669_j7954279432295_1_alg».proof.Proof.Gen.ReferenceIdeal.Run
import proofs.«162669_j7954279432295_1_alg».proof.Proof.Gen.ReferenceIdeal.Read
import proofs.«162669_j7954279432295_1_alg».proof.Proof.AttnSpec
import proofs.«162669_j7954279432295_1_alg».proof.Proof.AttnRef
import proofs.«162669_j7954279432295_1_alg».proof.Proof.AttnBlocks
import proofs.«162669_j7954279432295_1_alg».proof.Proof.AttnFinite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories agreeing on q, k, v with finite entries, both programs end with the result array
    at Σ_e q[b,h,s,e] · (Σ_t k[b,h,t,e] · v[b,h,t,d]): the kernel by its blocks, the reference after reassociating its
    double sum, which the real entries allow. -/
theorem algebraic : Cert.algebraic_KernelIdeal_ReferenceIdeal := by
  intro m ρ m' ρ' hpre hagree
  refine ⟨_, Cert.Attn.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hq, hk, hv⟩ := Cert.Attn.Finite.allReal_of_pre _ _ _ (hpre c)
  funext i
  obtain ⟨b, h, s, d, rfl⟩ : ∃ (b : Fin 1) (h : Fin 16) (s : Fin 4096) (d : Fin 64), i = ix4 b h s d :=
    ⟨i 0, i 1, i 2, i 3, eq_ix4 i⟩
  refine (Cert.Attn.Ref.result_at _ _ _ b h s d).trans ?_
  exact Cert.Attn.qkFirstAt_eq_kvFirstAt _ _ _ hq hk hv b h s d

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
